-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1x35 : Shape := ⟨2, ![1, 35]⟩
abbrev S35 : Shape := ⟨1, ![35]⟩
abbrev S35x1 : Shape := ⟨2, ![35, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x35 : S_.BroadcastsInDim S1x35 (![] : Fin 0 → Fin S1x35.rank)
  reducesTo_S1x35_S_d0_1 : S1x35.ReducesTo [0, 1] S_
  bcast_S_S35 : S_.BroadcastsInDim S35 (![] : Fin 0 → Fin S35.rank)
  reducesTo_S35_S_d0 : S35.ReducesTo [0] S_
  bcast_S_S35x1 : S_.BroadcastsInDim S35x1 (![] : Fin 0 → Fin S35x1.rank)
  reducesTo_S35x1_S_d0_1 : S35x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S35x1 1) : IVec S_ 1 :=
  let main_c_5 : IVec S_ 1 := constantI S_ 1 1#1
  let main_v17 : IVec S_ 1 := (fun x v => Host.reduce IntOp.andi x v reducesTo_S35x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x1 .f32) (main_arg1 : IVec S2x1600000 32) (main_arg2 : FVec F S1x35 .f32) (main_arg3 : FVec F S35 .f32) (main_arg4 : FVec F S35x1 .f32) (main_arg5 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x35 .f32 := Host.absf main_arg2
  let main_cst_0 : FVec F S_ .f32 := constant S_ .f32 0x7F800000#32
  let main_v5 : FVec F S1x35 .f32 := broadcastInDim S1x35 ![] bcast_S_S1x35 main_cst_0
  let main_v6 : IVec S1x35 1 := cmpf .olt main_v4 main_v5
  let main_c_1 : IVec S_ 1 := constantI S_ 1 1#1
  let main_v7 : IVec S_ 1 := (fun x v => Host.reduce IntOp.andi x v reducesTo_S1x35_S_d0_1 h_S_) main_v6 main_c_1
  let main_v8 : IVec S_ 1 := andi main_v3 main_v7
  let main_v9 : FVec F S35 .f32 := Host.absf main_arg3
  let main_cst_2 : FVec F S_ .f32 := constant S_ .f32 0x7F800000#32
  let main_v10 : FVec F S35 .f32 := broadcastInDim S35 ![] bcast_S_S35 main_cst_2
  let main_v11 : IVec S35 1 := cmpf .olt main_v9 main_v10
  let main_c_3 : IVec S_ 1 := constantI S_ 1 1#1
  let main_v12 : IVec S_ 1 := (fun x v => Host.reduce IntOp.andi x v reducesTo_S35_S_d0 h_S_) main_v11 main_c_3
  let main_v13 : IVec S_ 1 := andi main_v8 main_v12
  let main_v14 : FVec F S35x1 .f32 := Host.absf main_arg4
  let main_cst_4 : FVec F S_ .f32 := constant S_ .f32 0x7F800000#32
  let main_v15 : FVec F S35x1 .f32 := broadcastInDim S35x1 ![] bcast_S_S35x1 main_cst_4
  let main_v16 : IVec S35x1 1 := cmpf .olt main_v14 main_v15
  fn_part1 (F := F) main_arg5 main_v13 main_v16
-- ==== Kernel.lean ====
abbrev S100000x1 : Shape := ⟨2, ![100000, 1]⟩
abbrev S2x1600000 : Shape := ⟨2, ![2, 1600000]⟩
abbrev S1x35 : Shape := ⟨2, ![1, 35]⟩
abbrev S35 : Shape := ⟨1, ![35]⟩
abbrev S35x1 : Shape := ⟨2, ![35, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x35 : Shape := ⟨2, ![100000, 35]⟩
abbrev S5000x1 : Shape := ⟨2, ![5000, 1]⟩
abbrev S5000x35 : Shape := ⟨2, ![5000, 35]⟩
abbrev S1700000x35 : Shape := ⟨2, ![1700000, 35]⟩
abbrev S1x1 : Shape := ⟨2, ![1, 1]⟩

abbrev nBuf : Space → Nat
  | .hbm => 80
  | .vmem => 16
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x35, .f32⟩
  | .hbm, ⟨3, _⟩ => ⟨S35, .f32⟩
  | .hbm, ⟨4, _⟩ => ⟨S35x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x35, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x35, .f32⟩
  | .hbm, ⟨56, _⟩ => ⟨S1700000x1, .f32⟩
  | .hbm, ⟨57, _⟩ => ⟨S1700000x35, .f32⟩
  | .hbm, ⟨58, _⟩ => ⟨S1700000x35, .f32⟩
  | .hbm, ⟨59, _⟩ => ⟨S_, .f32⟩
  | .hbm, ⟨60, _⟩ => ⟨S100000x35, .f32⟩
  | .hbm, ⟨61, _⟩ => ⟨S1700000x1, .i32⟩
  | .hbm, ⟨62, _⟩ => ⟨S100000x35, .f32⟩
  | .hbm, ⟨63, _⟩ => ⟨S100000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x1, .f32⟩
  | .hbm, ⟨73, _⟩ => ⟨S1700000x1, .f32⟩
  | .hbm, ⟨74, _⟩ => ⟨S1700000x1, .f32⟩
  | .hbm, ⟨75, _⟩ => ⟨S_, .f32⟩
  | .hbm, ⟨76, _⟩ => ⟨S100000x1, .f32⟩
  | .hbm, ⟨77, _⟩ => ⟨S1700000x1, .i32⟩
  | .hbm, ⟨78, _⟩ => ⟨S100000x1, .f32⟩
  | .hbm, ⟨79, _⟩ => ⟨S100000x1, .f32⟩
  | .local _ .vmem, ⟨0, _⟩ => ⟨S5000x1, .f32⟩
  | .local _ .vmem, ⟨1, _⟩ => ⟨S5000x1, .f32⟩
  | .local _ .vmem, ⟨2, _⟩ => ⟨S1x35, .f32⟩
  | .local _ .vmem, ⟨3, _⟩ => ⟨S5000x35, .f32⟩
  | .local _ .vmem, ⟨4, _⟩ => ⟨S5000x35, .f32⟩
  | .local _ .vmem, ⟨5, _⟩ => ⟨S5000x35, .f32⟩
  | .local _ .vmem, ⟨6, _⟩ => ⟨S5000x35, .f32⟩
  | .local _ .vmem, ⟨7, _⟩ => ⟨S35, .f32⟩
  | .local _ .vmem, ⟨8, _⟩ => ⟨S35x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S1, .f32⟩
  | .local _ .vmem, ⟨14, _⟩ => ⟨S5000x1, .f32⟩
  | .local _ .vmem, ⟨15, _⟩ => ⟨S5000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x35 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x35 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x35 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S35 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S35x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x1_S5000x1_0_0 : ∀ a, (![0, 0] : Fin 2 → Nat) a + S5000x1.size a ≤ S5000x1.size a
  h_S5000x1 : 0 < S5000x1.numel
  inb_S1x35_S1x35_0_0 : ∀ a, (![0, 0] : Fin 2 → Nat) a + S1x35.size a ≤ S1x35.size a
  h_S1x35 : 0 < S1x35.numel
  broadcasts_S5000x1_S5000x35 : S5000x1.Broadcasts S5000x35
  broadcasts_S1x35_S5000x35 : S1x35.Broadcasts S5000x35
  inb_S5000x35_S5000x35_0_0 : ∀ a, (![0, 0] : Fin 2 → Nat) a + S5000x35.size a ≤ S5000x35.size a
  h_S5000x35 : 0 < S5000x35.numel
  bcast_S1700000x1_S1700000x35_0_1 : S1700000x1.BroadcastsInDim S1700000x35 (![0, 1] : Fin 2 → Fin S1700000x35.rank)
  bcast_S_S100000x35 : S_.BroadcastsInDim S100000x35 (![] : Fin 0 → Fin S100000x35.rank)
  shapeCasts_S5000x35_S5000x35 : S5000x35.ShapeCasts S5000x35
  inb_S35_S35_0 : ∀ a, (![0] : Fin 1 → Nat) a + S35.size a ≤ S35.size a
  h_S35 : 0 < S35.numel
  shapeCasts_S35_S1x35 : S35.ShapeCasts S1x35
  bitsLt_bf16_f32 : FTy.bits .bf16 < FTy.bits .f32
  inb_S35x1_S35x1_0_0 : ∀ a, (![0, 0] : Fin 2 → Nat) a + S35x1.size a ≤ S35x1.size a
  h_S35x1 : 0 < S35x1.numel
  bcast_S_S100000x1 : S_.BroadcastsInDim S100000x1 (![] : Fin 0 → Fin S100000x1.rank)
  shapeCasts_S5000x1_S5000x1 : S5000x1.ShapeCasts S5000x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x35_S1700000x1_S1700000x35_1_0_n_n_0_1_135_wf : GatherDims.WF S100000x35 S1700000x1 S1700000x35 [1] [0] [] [0] [] 1 ![1, 35]
  scatter_S100000x35_S1700000x1_S1700000x35_1_0_0_1_wf : ScatterDims.WF S100000x35 S1700000x1 S1700000x35 [1] [0] [0] 1
  dot_S5000x35_S35x1_S5000x1_1_0_0_1_n_n_wf : DotDims.WF S5000x35 S35x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x35.size a ≤ S1x35.size a
  hwx0_1 : ∀ i : grid0.Coords, EltTy.bits .f32 = 32 ∨ (Rect.block (s := S1x35) S1x35.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x35.size a ≤ S100000x35.size a
  hwx0_2 : ∀ i : grid0.Coords, EltTy.bits .f32 = 32 ∨ (Rect.block (s := S100000x35) S5000x35.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x35.size a ≤ S100000x35.size a
  hwx1_0 : ∀ i : grid1.Coords, EltTy.bits .f32 = 32 ∨ (Rect.block (s := S100000x35) S5000x35.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S35.size a ≤ S35.size a
  hwx1_1 : ∀ i : grid1.Coords, EltTy.bits .f32 = 32 ∨ (Rect.block (s := S35) S35.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S35x1.size a ≤ S35x1.size a
  hwx1_2 : ∀ i : grid1.Coords, EltTy.bits .f32 = 32 ∨ (Rect.block (s := S35x1) S35x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S100000x1.size a
  hwx2_0 : ∀ i : grid2.Coords, EltTy.bits .f32 = 32 ∨ (Rect.block (s := S100000x1) S5000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1.size a ≤ S1.size a
  hwx2_1 : ∀ i : grid2.Coords, EltTy.bits .f32 = 32 ∨ (Rect.block (s := S1) S1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x35_S1700000x1_S1700000x35_1_0_n_n_0_1_135 : GatherDims S100000x35 S1700000x1 S1700000x35 where
  offsetDims := [1]
  collapsedSliceDims := [0]
  operandBatchingDims := []
  startIndicesBatchingDims := []
  startIndexMap := [0]
  indexVectorDim := 1
  sliceSizes := ![1, 35]
  wf := gather_S100000x35_S1700000x1_S1700000x35_1_0_n_n_0_1_135_wf
def scatter_S100000x35_S1700000x1_S1700000x35_1_0_0_1 : ScatterDims S100000x35 S1700000x1 S1700000x35 where
  updateWindowDims := [1]
  insertedWindowDims := [0]
  scatterDimsToOperandDims := [0]
  indexVectorDim := 1
  wf := scatter_S100000x35_S1700000x1_S1700000x35_1_0_0_1_wf
def dot_S5000x35_S35x1_S5000x1_1_0_0_1_n_n : DotDims S5000x35 S35x1 S5000x1 where
  lhsContracting := [1]
  rhsContracting := [0]
  lhsNonContracting := [0]
  rhsNonContracting := [1]
  lhsBatch := []
  rhsBatch := []
  wf := dot_S5000x35_S35x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x35.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x35.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x35.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S35.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S35x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1x35 : Shape := ⟨2, ![1, 35]⟩
abbrev S35 : Shape := ⟨1, ![35]⟩
abbrev S35x1 : Shape := ⟨2, ![35, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x35 : Shape := ⟨2, ![100000, 35]⟩
abbrev S1700000x35 : Shape := ⟨2, ![1700000, 35]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x35, .f32⟩
  | .hbm, ⟨3, _⟩ => ⟨S35, .f32⟩
  | .hbm, ⟨4, _⟩ => ⟨S35x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x35, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x35, .f32⟩
  | .hbm, ⟨56, _⟩ => ⟨S1700000x1, .f32⟩
  | .hbm, ⟨57, _⟩ => ⟨S1700000x35, .f32⟩
  | .hbm, ⟨58, _⟩ => ⟨S1700000x35, .f32⟩
  | .hbm, ⟨59, _⟩ => ⟨S_, .f32⟩
  | .hbm, ⟨60, _⟩ => ⟨S100000x35, .f32⟩
  | .hbm, ⟨61, _⟩ => ⟨S1700000x1, .i32⟩
  | .hbm, ⟨62, _⟩ => ⟨S100000x35, .f32⟩
  | .hbm, ⟨63, _⟩ => ⟨S1x35, .f32⟩
  | .hbm, ⟨64, _⟩ => ⟨S100000x35, .f32⟩
  | .hbm, ⟨65, _⟩ => ⟨S100000x35, .f32⟩
  | .hbm, ⟨66, _⟩ => ⟨S100000x35, .f32⟩
  | .hbm, ⟨67, _⟩ => ⟨S100000x35, .f32⟩
  | .hbm, ⟨68, _⟩ => ⟨S_, .f32⟩
  | .hbm, ⟨69, _⟩ => ⟨S100000x35, .f32⟩
  | .hbm, ⟨70, _⟩ => ⟨S100000x35, .f32⟩
  | .hbm, ⟨71, _⟩ => ⟨S_, .f32⟩
  | .hbm, ⟨72, _⟩ => ⟨S100000x35, .f32⟩
  | .hbm, ⟨73, _⟩ => ⟨S100000x35, .f32⟩
  | .hbm, ⟨74, _⟩ => ⟨S100000x1, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x1, .f32⟩
  | .hbm, ⟨84, _⟩ => ⟨S1700000x1, .f32⟩
  | .hbm, ⟨85, _⟩ => ⟨S1700000x1, .f32⟩
  | .hbm, ⟨86, _⟩ => ⟨S_, .f32⟩
  | .hbm, ⟨87, _⟩ => ⟨S100000x1, .f32⟩
  | .hbm, ⟨88, _⟩ => ⟨S1700000x1, .i32⟩
  | .hbm, ⟨89, _⟩ => ⟨S100000x1, .f32⟩
  | .hbm, ⟨90, _⟩ => ⟨S1x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S_, .f32⟩
  | .hbm, ⟨99, _⟩ => ⟨S100000x1, .f32⟩
  | .hbm, ⟨100, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x35_0_1 : S1700000x1.BroadcastsInDim S1700000x35 (![0, 1] : Fin 2 → Fin S1700000x35.rank)
  bcast_S_S100000x35 : S_.BroadcastsInDim S100000x35 (![] : Fin 0 → Fin S100000x35.rank)
  bcast_S35_S1x35_1 : S35.BroadcastsInDim S1x35 (![1] : Fin 1 → Fin S1x35.rank)
  bcast_S1x35_S100000x35_0_1 : S1x35.BroadcastsInDim S100000x35 (![0, 1] : Fin 2 → Fin S100000x35.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x35_S100000x35_1_0_0_1_n_n_wf : DotDims.WF S100000x1 S1x35 S100000x35 [1] [0] [0] [1] [] []
  gather_S100000x35_S1700000x1_S1700000x35_1_0_n_n_0_1_135_wf : GatherDims.WF S100000x35 S1700000x1 S1700000x35 [1] [0] [] [0] [] 1 ![1, 35]
  scatter_S100000x35_S1700000x1_S1700000x35_1_0_0_1_wf : ScatterDims.WF S100000x35 S1700000x1 S1700000x35 [1] [0] [0] 1
  dot_S100000x35_S35x1_S100000x1_1_0_0_1_n_n_wf : DotDims.WF S100000x35 S35x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x35_S100000x35_1_0_0_1_n_n : DotDims S100000x1 S1x35 S100000x35 where
  lhsContracting := [1]
  rhsContracting := [0]
  lhsNonContracting := [0]
  rhsNonContracting := [1]
  lhsBatch := []
  rhsBatch := []
  wf := dot_S100000x1_S1x35_S100000x35_1_0_0_1_n_n_wf
def gather_S100000x35_S1700000x1_S1700000x35_1_0_n_n_0_1_135 : GatherDims S100000x35 S1700000x1 S1700000x35 where
  offsetDims := [1]
  collapsedSliceDims := [0]
  operandBatchingDims := []
  startIndicesBatchingDims := []
  startIndexMap := [0]
  indexVectorDim := 1
  sliceSizes := ![1, 35]
  wf := gather_S100000x35_S1700000x1_S1700000x35_1_0_n_n_0_1_135_wf
def scatter_S100000x35_S1700000x1_S1700000x35_1_0_0_1 : ScatterDims S100000x35 S1700000x1 S1700000x35 where
  updateWindowDims := [1]
  insertedWindowDims := [0]
  scatterDimsToOperandDims := [0]
  indexVectorDim := 1
  wf := scatter_S100000x35_S1700000x1_S1700000x35_1_0_0_1_wf
def dot_S100000x35_S35x1_S100000x1_1_0_0_1_n_n : DotDims S100000x35 S35x1 S100000x1 where
  lhsContracting := [1]
  rhsContracting := [0]
  lhsNonContracting := [0]
  rhsNonContracting := [1]
  lhsBatch := []
  rhsBatch := []
  wf := dot_S100000x35_S35x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.Graph.lean ====
/-
  The sparse half of a graph-convolution layer, as one function of the node features.

  With src, dst the edge endpoints (the given edges followed by one self-loop per node, negative endpoints wrapped
  once by the node count) and norm[e] = deg^(-1/2)[src e] · deg^(-1/2)[dst e], a layer sends the node features h to
      out[n, :] = Σ_{e : dst e = n} h[src e, :] · norm[e]
  (gather along src, scale, scatter-add by dst into zeros). Both programs compute src, dst and norm from the edge
  list by the very same chain of operations, so that chain is never opened here: `spread35` and `spread1` name a
  layer's sparse half over 35 features and over 1 feature, built from the reference's own stages for the index and
  normalisation arrays, with the node features left as the argument.
-/
import proofs.«135315_j75557064671746_1_alg».proof.Proof.RefRead

noncomputable section

namespace Cert.Gcn

open Cert.ReferenceIdeal Cert.ReferenceIdeal.Gen Cert.ReferenceIdeal.ReadP Idealize.ShloMosaic

variable {F : FTy → Type} [FloatOps F]

/-- Message passing over 35 features: gather rows of `h` at the wrapped sources, scale each row by its edge's
    normalisation, scatter-add the rows at the destinations into zeros. -/
def spread35 (e : (⟨S2x1600000, .i32⟩ : BufTy).Contents (Elt F)) (h : (⟨S100000x35, .f32⟩ : BufTy).Contents (Elt F)) :
    (⟨S100000x35, .f32⟩ : BufTy).Contents (Elt F) :=
  Host.scatterAdd scatter_S100000x35_S1700000x1_S1700000x35_1_0_0_1 (val_main_v41 (F := F)) (val_main_v42 (F := F) e)
    (mulf (Host.gather gather_S100000x35_S1700000x1_S1700000x35_1_0_n_n_0_1_135 h (val_main_v36 (F := F) e)) (val_main_v39 (F := F) e))

/-- Message passing over one feature. -/
def spread1 (e : (⟨S2x1600000, .i32⟩ : BufTy).Contents (Elt F)) (h : (⟨S100000x1, .f32⟩ : BufTy).Contents (Elt F)) :
    (⟨S100000x1, .f32⟩ : BufTy).Contents (Elt F) :=
  Host.scatterAdd scatter_S100000x1_S1700000x1_S1700000x1_1_0_0_1 (val_main_v63 (F := F)) (val_main_v64 (F := F) e)
    (mulf (Host.gather gather_S100000x1_S1700000x1_S1700000x1_1_0_n_n_0_1_11 h (val_main_v59 (F := F) e)) (val_main_v61 (F := F) e))

/-- The reference's first scatter-add is the sparse half applied to its first dense transform. -/
theorem ref_layer1 (x0 : (⟨S100000x1, .f32⟩ : BufTy).Contents (Elt F)) (x1 : (⟨S2x1600000, .i32⟩ : BufTy).Contents (Elt F))
    (x2 : (⟨S1x35, .f32⟩ : BufTy).Contents (Elt F)) :
    val_main_v43 (F := F) x0 x1 x2 = spread35 x1 (val_main_v30 (F := F) x0 x2) := rfl

/-- The reference's second scatter-add is the sparse half applied to its second dense transform. -/
theorem ref_layer2 (x0 : (⟨S100000x1, .f32⟩ : BufTy).Contents (Elt F)) (x1 : (⟨S2x1600000, .i32⟩ : BufTy).Contents (Elt F))
    (x2 : (⟨S1x35, .f32⟩ : BufTy).Contents (Elt F)) (x3 : (⟨S35, .f32⟩ : BufTy).Contents (Elt F)) (x4 : (⟨S35x1, .f32⟩ : BufTy).Contents (Elt F)) :
    val_main_v65 (F := F) x0 x1 x2 x3 x4 = spread1 x1 (val_main_v53 (F := F) x0 x1 x2 x3 x4) := rfl

end Cert.Gcn

end
-- ==== Proof.KHost.lean ====
/-
  The host side of the kernel program, read back boundary by boundary.

  Both programs turn the edge list into the endpoint arrays src, dst (the given edges followed by a self-loop per
  node) and the edge normalisation norm = deg^(-1/2)[src] · deg^(-1/2)[dst] by the same operations in the same order;
  the kernel program then alternates its three dense regions with two stretches of host operations, each of which
  is one round of message passing (gather at src, scale by norm, scatter-add at dst) on what the region before it
  left. Here each boundary's contents are named: the index and normalisation arrays are the reference's own stages
  of the edge list at every boundary (no region and no later stretch writes them), the arguments stay as launched,
  and the two message-passing stretches are `spread35` and `spread1` of the preceding region's output.
-/
import proofs.«135315_j75557064671746_1_alg».proof.Proof.Gen.KernelIdeal.Frame
import proofs.«135315_j75557064671746_1_alg».proof.Proof.Graph
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL.Sem
open Cert.ReferenceIdeal.ReadP (val_main_v3 val_main_v6 val_main_v12 val_main_v13 val_main_cst_2 val_main_v14 val_main_v29)

variable {F : FTy → Type} [FloatOps F]
variable (m : (ℓ : Loc nD τ sig) → Buf (Elt F) ℓ) (ρ : Dev nD → PrngReg)

/-- A buffer that no operation of a host stretch writes holds after the stretch what it held before. -/
local macro "kept_through " ops:ident : term => `(StableHlo.after_of_forall_not_mem _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide))))

/-! ## The first stretch: the endpoint arrays and the degree's pieces, from the edge list -/

theorem src_1 (c : Dev nD) : W1 m ρ c (Proc.devRef .tc main_v3) = val_main_v3 (F := F) (m ((c : Thread nD τ).loc main_arg1)) := by
  show StableHlo.after hostOps0 (W0 m ρ c) (Proc.devRef .tc main_v3) = _
  after_results
  rfl

theorem dst_1 (c : Dev nD) : W1 m ρ c (Proc.devRef .tc main_v6) = val_main_v6 (F := F) (m ((c : Thread nD τ).loc main_arg1)) := by
  show StableHlo.after hostOps0 (W0 m ρ c) (Proc.devRef .tc main_v6) = _
  after_results
  rfl

theorem degpos_1 (c : Dev nD) : W1 m ρ c (Proc.devRef .tc main_v12) = val_main_v12 (F := F) (m ((c : Thread nD τ).loc main_arg1)) := by
  show StableHlo.after hostOps0 (W0 m ρ c) (Proc.devRef .tc main_v12) = _
  after_results
  rfl

theorem degrsqrt_1 (c : Dev nD) : W1 m ρ c (Proc.devRef .tc main_v13) = val_main_v13 (F := F) (m ((c : Thread nD τ).loc main_arg1)) := by
  show StableHlo.after hostOps0 (W0 m ρ c) (Proc.devRef .tc main_v13) = _
  after_results
  rfl

theorem zero_1 (c : Dev nD) : W1 m ρ c (Proc.devRef .tc main_cst_2) = val_main_cst_2 (F := F) := by
  show StableHlo.after hostOps0 (W0 m ρ c) (Proc.devRef .tc main_cst_2) = _
  after_results
  rfl

/-! ## The second stretch (the guarded reciprocal square root of the degree) and the third (the edge normalisation) -/

theorem src_2 (c : Dev nD) : W2 m ρ c (Proc.devRef .tc main_v3) = val_main_v3 (F := F) (m ((c : Thread nD τ).loc main_arg1)) :=
  (kept_through hostOps0_1 : W2 m ρ c (Proc.devRef .tc main_v3) = W1 m ρ c (Proc.devRef .tc main_v3)).trans (src_1 m ρ c)

theorem dst_2 (c : Dev nD) : W2 m ρ c (Proc.devRef .tc main_v6) = val_main_v6 (F := F) (m ((c : Thread nD τ).loc main_arg1)) :=
  (kept_through hostOps0_1 : W2 m ρ c (Proc.devRef .tc main_v6) = W1 m ρ c (Proc.devRef .tc main_v6)).trans (dst_1 m ρ c)

theorem dinv_2 (c : Dev nD) : W2 m ρ c (Proc.devRef .tc main_v14) = val_main_v14 (F := F) (m ((c : Thread nD τ).loc main_arg1)) := by
  show StableHlo.after hostOps0_1 (W1 m ρ c) (Proc.devRef .tc main_v14) = _
  have h12 := degpos_1 m ρ c
  have h13 := degrsqrt_1 m ρ c
  have hz := zero_1 m ρ c
  generalize W1 m ρ c = U at h12 h13 hz ⊢
  after_results
  simp only [TRef.ofBuf, TRef.toBuf, cast_eq]
  rw [h12, h13, hz]
  rfl

theorem src_3 (c : Dev nD) : W3 m ρ c (Proc.devRef .tc main_v3) = val_main_v3 (F := F) (m ((c : Thread nD τ).loc main_arg1)) :=
  (kept_through hostOps0_2 : W3 m ρ c (Proc.devRef .tc main_v3) = W2 m ρ c (Proc.devRef .tc main_v3)).trans (src_2 m ρ c)

theorem dst_3 (c : Dev nD) : W3 m ρ c (Proc.devRef .tc main_v6) = val_main_v6 (F := F) (m ((c : Thread nD τ).loc main_arg1)) :=
  (kept_through hostOps0_2 : W3 m ρ c (Proc.devRef .tc main_v6) = W2 m ρ c (Proc.devRef .tc main_v6)).trans (dst_2 m ρ c)

set_option maxHeartbeats 4000000 in
theorem norm_3 (c : Dev nD) : W3 m ρ c (Proc.devRef .tc main_v29) = val_main_v29 (F := F) (m ((c : Thread nD τ).loc main_arg1)) := by
  show StableHlo.after hostOps0_2 (W2 m ρ c) (Proc.devRef .tc main_v29) = _
  have h14 := dinv_2 m ρ c
  have h3 := src_2 m ρ c
  have h6 := dst_2 m ρ c
  generalize W2 m ρ c = U at h14 h3 h6 ⊢
  after_results_simp
  rw [h14, h3, h6]
  rfl

/-! ## Across the regions and the two message-passing stretches

A region writes only its own output array and a later stretch only its own results, so the endpoint and
normalisation arrays read at every later boundary as the stages of the edge list, and each stretch between two
regions is one round of message passing on the array the region before it wrote. -/

theorem src_4 (c : Dev nD) : W4 m ρ c (Proc.devRef .tc main_v3) = val_main_v3 (F := F) (m ((c : Thread nD τ).loc main_arg1)) :=
  (W4_of_ne m ρ c main_v3 (by decide)).trans (src_3 m ρ c)
theorem dst_4 (c : Dev nD) : W4 m ρ c (Proc.devRef .tc main_v6) = val_main_v6 (F := F) (m ((c : Thread nD τ).loc main_arg1)) :=
  (W4_of_ne m ρ c main_v6 (by decide)).trans (dst_3 m ρ c)
theorem norm_4 (c : Dev nD) : W4 m ρ c (Proc.devRef .tc main_v29) = val_main_v29 (F := F) (m ((c : Thread nD τ).loc main_arg1)) :=
  (W4_of_ne m ρ c main_v29 (by decide)).trans (norm_3 m ρ c)

set_option maxHeartbeats 4000000 in
/-- The stretch after the first region: message passing over 35 features on the first region's output. -/
theorem layer1_5 (c : Dev nD) :
    W5 m ρ c (Proc.devRef .tc main_v43) = Cert.Gcn.spread35 (F := F) (m ((c : Thread nD τ).loc main_arg1)) (W4 m ρ c (Proc.devRef .tc main_v30)) := by
  show StableHlo.after hostOps1 (W4 m ρ c) (Proc.devRef .tc main_v43) = _
  after_results_simp
  rw [src_4, dst_4, norm_4]
  rfl

theorem src_5 (c : Dev nD) : W5 m ρ c (Proc.devRef .tc main_v3) = val_main_v3 (F := F) (m ((c : Thread nD τ).loc main_arg1)) :=
  (kept_through hostOps1 : W5 m ρ c (Proc.devRef .tc main_v3) = W4 m ρ c (Proc.devRef .tc main_v3)).trans (src_4 m ρ c)
theorem dst_5 (c : Dev nD) : W5 m ρ c (Proc.devRef .tc main_v6) = val_main_v6 (F := F) (m ((c : Thread nD τ).loc main_arg1)) :=
  (kept_through hostOps1 : W5 m ρ c (Proc.devRef .tc main_v6) = W4 m ρ c (Proc.devRef .tc main_v6)).trans (dst_4 m ρ c)
theorem norm_5 (c : Dev nD) : W5 m ρ c (Proc.devRef .tc main_v29) = val_main_v29 (F := F) (m ((c : Thread nD τ).loc main_arg1)) :=
  (kept_through hostOps1 : W5 m ρ c (Proc.devRef .tc main_v29) = W4 m ρ c (Proc.devRef .tc main_v29)).trans (norm_4 m ρ c)

theorem src_6 (c : Dev nD) : W6 m ρ c (Proc.devRef .tc main_v3) = val_main_v3 (F := F) (m ((c : Thread nD τ).loc main_arg1)) :=
  (W6_of_ne m ρ c main_v3 (by decide)).trans (src_5 m ρ c)
theorem dst_6 (c : Dev nD) : W6 m ρ c (Proc.devRef .tc main_v6) = val_main_v6 (F := F) (m ((c : Thread nD τ).loc main_arg1)) :=
  (W6_of_ne m ρ c main_v6 (by decide)).trans (dst_5 m ρ c)
theorem norm_6 (c : Dev nD) : W6 m ρ c (Proc.devRef .tc main_v29) = val_main_v29 (F := F) (m ((c : Thread nD τ).loc main_arg1)) :=
  (W6_of_ne m ρ c main_v29 (by decide)).trans (norm_5 m ρ c)

set_option maxHeartbeats 4000000 in
/-- The stretch after the second region: message passing over one feature on the second region's output. -/
theorem layer2_7 (c : Dev nD) :
    W7 m ρ c (Proc.devRef .tc main_v56) = Cert.Gcn.spread1 (F := F) (m ((c : Thread nD τ).loc main_arg1)) (W6 m ρ c (Proc.devRef .tc main_v44)) := by
  show StableHlo.after hostOps2 (W6 m ρ c) (Proc.devRef .tc main_v56) = _
  after_results_simp
  rw [src_6, dst_6, norm_6]
  rfl

/-! ## The arguments each region reads are still the launch contents when it is entered -/

/-- A buffer the first three stretches leave alone holds its launch contents when the first region is entered. -/
theorem launch_3 (c : Dev nD) (b : Ref sig .tc)
    (h0 : W1 m ρ c (Proc.devRef .tc b) = W0 m ρ c (Proc.devRef .tc b))
    (h1 : W2 m ρ c (Proc.devRef .tc b) = W1 m ρ c (Proc.devRef .tc b))
    (h2 : W3 m ρ c (Proc.devRef .tc b) = W2 m ρ c (Proc.devRef .tc b)) :
    W3 m ρ c (Proc.devRef .tc b) = m ((c : Thread nD τ).loc b) :=
  h2.trans (h1.trans (h0.trans rfl))

theorem x_3 (c : Dev nD) : W3 m ρ c (Proc.devRef .tc main_arg0) = m ((c : Thread nD τ).loc main_arg0) :=
  launch_3 m ρ c main_arg0 (kept_through hostOps0) (kept_through hostOps0_1) (kept_through hostOps0_2)
theorem w1_3 (c : Dev nD) : W3 m ρ c (Proc.devRef .tc main_arg2) = m ((c : Thread nD τ).loc main_arg2) :=
  launch_3 m ρ c main_arg2 (kept_through hostOps0) (kept_through hostOps0_1) (kept_through hostOps0_2)

theorem b1_5 (c : Dev nD) : W5 m ρ c (Proc.devRef .tc main_arg3) = m ((c : Thread nD τ).loc main_arg3) :=
  (kept_through hostOps1 : W5 m ρ c (Proc.devRef .tc main_arg3) = W4 m ρ c (Proc.devRef .tc main_arg3)).trans ((W4_of_ne m ρ c main_arg3 (by decide)).trans
    (launch_3 m ρ c main_arg3 (kept_through hostOps0) (kept_through hostOps0_1) (kept_through hostOps0_2)))
theorem w2_5 (c : Dev nD) : W5 m ρ c (Proc.devRef .tc main_arg4) = m ((c : Thread nD τ).loc main_arg4) :=
  (kept_through hostOps1 : W5 m ρ c (Proc.devRef .tc main_arg4) = W4 m ρ c (Proc.devRef .tc main_arg4)).trans ((W4_of_ne m ρ c main_arg4 (by decide)).trans
    (launch_3 m ρ c main_arg4 (kept_through hostOps0) (kept_through hostOps0_1) (kept_through hostOps0_2)))

theorem b2_7 (c : Dev nD) : W7 m ρ c (Proc.devRef .tc main_arg5) = m ((c : Thread nD τ).loc main_arg5) :=
  (kept_through hostOps2 : W7 m ρ c (Proc.devRef .tc main_arg5) = W6 m ρ c (Proc.devRef .tc main_arg5)).trans ((W6_of_ne m ρ c main_arg5 (by decide)).trans
    ((kept_through hostOps1 : W5 m ρ c (Proc.devRef .tc main_arg5) = W4 m ρ c (Proc.devRef .tc main_arg5)).trans ((W4_of_ne m ρ c main_arg5 (by decide)).trans
      (launch_3 m ρ c main_arg5 (kept_through hostOps0) (kept_through hostOps0_1) (kept_through hostOps0_2)))))

end Cert.KernelIdeal.Host

end
-- ==== Proof.Spec.lean ====
/-
  A two-layer graph convolution on 100000 nodes, its dense pieces as whole-array functions over the extended reals.

  Between the sparse steps (gather along edges, scale by the symmetric degree normalisation, scatter-add by
  destination) the network applies three dense maps, each acting on one node row at a time:

  * `lift`:    h₁[n, j] = x[n, 0] · W₁[0, j]                       (a product with a one-row matrix is an outer product)
  * `squash`:  h₂[n, 0] = Σ_k σ(a[n, k] + b₁[k]) · W₂[k, 0]        (bias, logistic, then a 35-term dot product)
  * `readout`: y[n, 0]  = σ(a[n, 0] + b₂[0])

  with σ(t) = 1 / (1 + e^(−t)) read on the extended reals (σ(−∞) = 0, σ(+∞) = 1). No finiteness is needed anywhere:
  both programs compute literally these expressions, the sums over k in the same index set.
-/
import Idealize.ShloMosaic.PureOps.Ideal
import Idealize.ShloMosaic.Lib.ValueIdx

noncomputable section

namespace Cert.Gcn

open Idealize.ShloMosaic Idealize.ShloMosaic.ValueIdx

/-- One scalar feature per node. -/
abbrev Nodes1 : Shape := ⟨2, ![100000, 1]⟩
/-- Thirty-five hidden features per node. -/
abbrev Nodes35 : Shape := ⟨2, ![100000, 35]⟩
abbrev Row35 : Shape := ⟨2, ![1, 35]⟩
abbrev Bias35 : Shape := ⟨1, ![35]⟩
abbrev Col35 : Shape := ⟨2, ![35, 1]⟩
abbrev Bias1 : Shape := ⟨1, ![1]⟩

/-- Node `n`'s row of the array `[100000, 35]`, entry `k`. -/
abbrev at35 (n : Fin 100000) (k : Fin 35) : Nodes35.Idx := ix2 n k
/-- Node `n`'s single entry of the array `[100000, 1]`. -/
abbrev at1 (n : Fin 100000) : Nodes1.Idx := ix2 n (0 : Fin 1)

/-- The first layer's dense transform: each node's scalar times the weight row. -/
def lift (x : FVec Ideal Nodes1 .f32) (w : FVec Ideal Row35 .f32) : FVec Ideal Nodes35 .f32 :=
  fun i => x (at1 (i 0)) * w (ix2 (0 : Fin 1) (i 1))

/-- The second layer's dense transform, fused with the first layer's bias and logistic: node `n` gets
    Σ_k σ(a[n, k] + b[k]) · w[k, 0]. -/
def squash (a : FVec Ideal Nodes35 .f32) (b : FVec Ideal Bias35 .f32) (w : FVec Ideal Col35 .f32) : FVec Ideal Nodes1 .f32 :=
  fun i => ∑ k : Fin 35, Ideal.logistic (a (at35 (i 0) k) + b (ix1 k)) * w (ix2 k (0 : Fin 1))

/-- The output layer: bias and logistic on each node's scalar. -/
def readout (a : FVec Ideal Nodes1 .f32) (b : FVec Ideal Bias1 .f32) : FVec Ideal Nodes1 .f32 :=
  fun i => Ideal.logistic (a i + b (ix1 (0 : Fin 1)))

end Cert.Gcn

end
-- ==== Proof.Region0.lean ====
import proofs.«135315_j75557064671746_1_alg».proof.Proof.Gen.KernelIdeal.Frame
import proofs.«135315_j75557064671746_1_alg».proof.Proof.Spec
import Idealize.ShloMosaic.Lib.Pipeline.Value
import Idealize.ShloMosaic.Lib.ValueIdx
import Idealize.ShloMosaic.Lib.ValueLayout
import Idealize.ShloMosaic.PureOps.Ideal.Laws

/-
  The first dense map of the network, h₁[n, j] = x[n, 0] · W₁[0, j], as the first pipelined region computes it:
  the 100000 nodes are cut into 20 row blocks of 5000; on each block the node column [5000, 1] and the weight row [1, 35]
  are each repeated to [5000, 35] and multiplied entry by entry. Read at an entry (p, q) the repeated column is its row p
  and the repeated row is its column q, so the block holds the outer product of its 5000 nodes with the weight row; block t
  sits at rows 5000·t … 5000·t + 4999 of the array, all 35 columns, so it is the whole-array outer product read through that
  rectangle; and since node n lies in block n / 5000, the blocks written back fill the array.
-/
set_option maxRecDepth 16384

noncomputable section

namespace Cert.KernelIdeal.Dense

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- A column `[a, 1]` broadcast to `[a, b]` reads, at `(p, q)`, the column's entry in row `p`. -/
theorem r0_broadcast_column {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The outer product on one block of 5000 nodes: entry `(p, q)` is the node's scalar times the weight row's entry `q`. -/
theorem lift_block (x0 : Vec Ideal S5000x1 .f32) (x1 : Vec Ideal S1x35 .f32) (p : Fin 5000) (q : Fin 35) :
    k0_pay1 (F := Ideal) x0 x1 (ix2 p q) = x0 (ix2 p (0 : Fin 1)) * x1 (ix2 (0 : Fin 1) q) := by
  unfold k0_pay1
  show FloatOps.mulf (F := Ideal) (broadcastTo S5000x35 x0 broadcasts_S5000x1_S5000x35 (ix2 p q))
    (broadcastTo S5000x35 x1 broadcasts_S1x35_S5000x35 (ix2 p q)) = _
  rw [r0_broadcast_column (a := 5000) (b := 35), broadcastTo_1b_ab_apply (a := 5000) (b := 35)]
  rfl

section Blocks

variable (V : (c : Dev nD) → (b : Ref sig .tc) → Buf (Elt Ideal) ((c : Thread nD τ).loc b))

/-- The zero offsets of the body's whole-buffer accesses. -/
theorem r0_origin : (![0, 0] : Fin 2 → Nat) = fun _ => 0 := funext fun a => by fin_cases a <;> rfl

/-- The printed index maps over the grid: point `t` takes row block `t` of the node column and of the output, column block 0 of each,
    and the one block of the weight row. -/
theorem r0_block_index : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- One entry of the block's outer product is the whole-array outer product at any index whose node and column the
    block's column entry and row entry are read from. -/
theorem r0_entry (x : FVec Ideal Cert.Gcn.Nodes1 .f32) (w : FVec Ideal Cert.Gcn.Row35 .f32)
    (x0 : Vec Ideal S5000x1 .f32) (x1 : Vec Ideal S1x35 .f32) (p : Fin 5000) (q : Fin 35) (i : Cert.Gcn.Nodes35.Idx)
    (h0 : x0 (ix2 p (0 : Fin 1)) = x (Cert.Gcn.at1 (i 0))) (h1 : x1 (ix2 (0 : Fin 1) q) = w (ix2 (0 : Fin 1) (i 1))) :
    k0_pay1 (F := Ideal) x0 x1 (ix2 p q) = Cert.Gcn.lift x w i := by
  rw [lift_block, h0, h1]
  rfl

/-- WHAT POINT `t` WRITES BACK is block `t` of the outer product of the node column and the weight row as the region finds them. -/
theorem r0_flushed (c : Dev nD) (t : Fin cfg0.N) :
    (dat0 (F := Ideal) V c).flushed 2 t = ((cfg0.win 2).blk t).view.read (Elt Ideal) (Cert.Gcn.lift (V c main_arg0) (V c main_arg2)) := by
  show (cfg0.win 2).cut (grid0.coords t) ((dat0 V c).after 2 t) = _
  rw [after0_2]
  unfold out0_2
  rw [View.canon_unit_zero r0_origin]
  simp only [View.ld_unit_zero (S := S5000x1) r0_origin, View.ld_unit_zero (S := S1x35) r0_origin]
  obtain ⟨e0, e1, e2, e3, e4, e5⟩ := r0_block_index t
  funext j
  obtain ⟨p, q, rfl⟩ : ∃ (p : Fin 5000) (q : Fin 35), j = ix2 p q := ⟨j 0, j 1, eq_ix2 j⟩
  show k0_pay1 (F := Ideal) (iblk0 V c 0 t) (iblk0 V c 1 t) (ix2 p q) = Cert.Gcn.lift (V c main_arg0) (V c main_arg2) (((cfg0.win 2).blk t).view.emb (ix2 p q))
  refine r0_entry (V c main_arg0) (V c main_arg2) (iblk0 V c 0 t) (iblk0 V c 1 t) p q _ ?_ ?_
  · show V c main_arg0 (((cfg0.win 0).blk t).view.emb (ix2 p (0 : Fin 1))) = V c main_arg0 (Cert.Gcn.at1 ((((cfg0.win 2).blk t).view.emb (ix2 p q)) 0))
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 1 + 1 * 0 = 0; omega
  · show V c main_arg2 (((cfg0.win 1).blk t).view.emb (ix2 (0 : Fin 1) q)) = V c main_arg2 (ix2 (0 : Fin 1) ((((cfg0.win 2).blk t).view.emb (ix2 p q)) 1))
    refine congrArg _ (funext fun a => Fin.ext ?_)
    match a with
    | ⟨0, _⟩ => show win0_1.index t (0 : Fin 2) * 1 + 1 * 0 = 0; omega
    | ⟨1, _⟩ => show win0_1.index t (1 : Fin 2) * 35 + 1 * q.val = win0_2.index t (1 : Fin 2) * 35 + 1 * q.val; omega

/-- An index of the output array is in point `t`'s block iff each coordinate is in the block's range on its axis. -/
theorem r0_mem_blk (t : Fin cfg0.N) (i : S100000x35.Idx) :
    i ∈ ((cfg0.win 2).blk t).view.set ↔ ∀ a : Fin 2, win0_2.index t a * S5000x35.size a ≤ (i a).val ∧ (i a).val < win0_2.index t a * S5000x35.size a + S5000x35.size a := by
  show i ∈ ((View.whole main_v30).slice (win0_2.rect t)).set ↔ _
  rw [View.set_slice_whole, Rect.mem_set_unit]
  exact Iff.rfl

/-- The twenty row blocks of 5000 nodes cover the array: node `n` lies in the block of point `n / 5000`. -/
theorem r0_cover (i : S100000x35.Idx) :
    ∃ t : Fin cfg0.N, (cfg0.win 2).flush t = true ∧ i ∈ ((cfg0.win 2).blk t).view.set := by
  have hi0 : (i 0).val < 100000 := (i 0).isLt
  have hi1 : (i 1).val < 35 := (i 1).isLt
  have hN : cfg0.N = 20 := N_0
  refine ⟨⟨(i 0).val / 5000, by omega⟩, flush0_2 _, ?_⟩
  rw [r0_mem_blk]
  obtain ⟨-, -, -, -, e4, e5⟩ := r0_block_index ⟨(i 0).val / 5000, by omega⟩
  intro a
  match a with
  | ⟨0, _⟩ =>
    show win0_2.index _ (0 : Fin 2) * 5000 ≤ (i 0).val ∧ (i 0).val < win0_2.index _ (0 : Fin 2) * 5000 + 5000
    rw [e4]
    show (i 0).val / 5000 * 5000 ≤ (i 0).val ∧ (i 0).val < (i 0).val / 5000 * 5000 + 5000
    omega
  | ⟨1, _⟩ =>
    show win0_2.index _ (1 : Fin 2) * 35 ≤ (i 1).val ∧ (i 1).val < win0_2.index _ (1 : Fin 2) * 35 + 35
    rw [e5]
    omega

end Blocks

/-- THE ARRAY after the region: the outer product of the node column and the weight row, every block written back and the
    blocks covering all 100000 nodes. -/
theorem region0_value (V : (c : Dev nD) → (b : Ref sig .tc) → Buf (Elt Ideal) ((c : Thread nD τ).loc b)) (c : Dev nD) :
    (dat0 (F := Ideal) V c).arrAt 2 cfg0.N = Cert.Gcn.lift (V c main_arg0) (V c main_arg2) :=
  (dat0 (F := Ideal) V c).arrAt_eq_of_cover 2 _ (fun t _ => r0_flushed V c t) r0_cover

end Cert.KernelIdeal.Dense

end
-- ==== Proof.Region1.lean ====
import proofs.«135315_j75557064671746_1_alg».proof.Proof.Gen.KernelIdeal.Frame
import proofs.«135315_j75557064671746_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-
  The fused stage's region: twenty blocks of 5000 nodes, block t holding the nodes 5000·t … 5000·t + 4999. On each
  block the body adds the bias row to the 35 features of every node, applies the logistic, and multiplies the
  [5000, 35] result by the [35, 1] weight column into a zero accumulator; the change of float format in front of
  the product is the identity on the extended reals. Each row of the product is a 35-term dot product, so the
  body acts on one node at a time, and since the blocks tile the node axis the array after the region is
  `squash` of the array the region found, the bias and the weight column, node by node.
-/

/-- The contraction reads the left operand's row: on axis 0 the output's row. -/
theorem r1_lhs_0 (i : S5000x1.Idx) (q : dot_S5000x35_S35x1_S5000x1_1_0_0_1_n_n.contr.Idx) :
    (dot_S5000x35_S35x1_S5000x1_1_0_0_1_n_n.lhsIdx i q 0).val = (i 0).val := by
  unfold DotDims.lhsIdx
  rw [dif_neg (show ¬(0 : Fin S5000x35.rank) ∈ dot_S5000x35_S35x1_S5000x1_1_0_0_1_n_n.lhsBatch by decide), dif_pos (show (0 : Fin S5000x35.rank) ∈ dot_S5000x35_S35x1_S5000x1_1_0_0_1_n_n.lhsNonContracting by decide)]
  rfl
/-- On axis 1 the left operand is read at the contraction index. -/
theorem r1_lhs_1 (i : S5000x1.Idx) (q : dot_S5000x35_S35x1_S5000x1_1_0_0_1_n_n.contr.Idx) :
    (dot_S5000x35_S35x1_S5000x1_1_0_0_1_n_n.lhsIdx i q 1).val = (q ⟨0, by decide⟩).val :=
  dot_S5000x35_S35x1_S5000x1_1_0_0_1_n_n.lhsIdx_val_of_single rfl i q
/-- On axis 0 the right operand is read at the contraction index. -/
theorem r1_rhs_0 (i : S5000x1.Idx) (q : dot_S5000x35_S35x1_S5000x1_1_0_0_1_n_n.contr.Idx) :
    (dot_S5000x35_S35x1_S5000x1_1_0_0_1_n_n.rhsIdx i q 0).val = (q ⟨0, by decide⟩).val :=
  dot_S5000x35_S35x1_S5000x1_1_0_0_1_n_n.rhsIdx_val_of_single rfl i q
/-- On axis 1 the right operand is read at the output's column. -/
theorem r1_rhs_1 (i : S5000x1.Idx) (q : dot_S5000x35_S35x1_S5000x1_1_0_0_1_n_n.contr.Idx) :
    (dot_S5000x35_S35x1_S5000x1_1_0_0_1_n_n.rhsIdx i q 1).val = (i 1).val := by
  unfold DotDims.rhsIdx
  rw [dif_neg (show ¬(1 : Fin S35x1.rank) ∈ dot_S5000x35_S35x1_S5000x1_1_0_0_1_n_n.rhsBatch by decide), dif_pos (show (1 : Fin S35x1.rank) ∈ dot_S5000x35_S35x1_S5000x1_1_0_0_1_n_n.rhsNonContracting by decide)]
  rfl

/-- A [5000, 35] × [35, 1] block product into the zero accumulator, read at row `p`: the 35-term dot product
    of the left operand's row `p` with the right operand's one column. -/
theorem r1_block_product (l : FVec Ideal S5000x35 .bf16) (r : FVec Ideal S35x1 .bf16) (p : Fin 5000) (q : Fin 1) :
    FloatOps.matmul dot_S5000x35_S35x1_S5000x1_1_0_0_1_n_n none l r (constant S5000x1 .f32 0x00000000#32) (ix2 p q)
      = ∑ k : Fin 35, l (ix2 p k) * r (ix2 k (0 : Fin 1)) := by
  rw [Ideal.matmul_constant_zero_apply, ← Equiv.sum_comp (ValueIdx.contrEquiv1 dot_S5000x35_S35x1_S5000x1_1_0_0_1_n_n 35 rfl rfl).symm]
  refine Finset.sum_congr rfl fun k _ => ?_
  have hk := ValueIdx.contrEquiv1_symm_val dot_S5000x35_S35x1_S5000x1_1_0_0_1_n_n 35 rfl rfl k
  have hq : q.val = 0 := by omega
  have el : dot_S5000x35_S35x1_S5000x1_1_0_0_1_n_n.lhsIdx (ix2 p q) ((ValueIdx.contrEquiv1 dot_S5000x35_S35x1_S5000x1_1_0_0_1_n_n 35 rfl rfl).symm k) = ix2 p k := funext fun a => Fin.ext (by
    match a with
    | ⟨0, _⟩ => exact r1_lhs_0 _ _
    | ⟨1, _⟩ => exact (r1_lhs_1 _ _).trans hk)
  have er : dot_S5000x35_S35x1_S5000x1_1_0_0_1_n_n.rhsIdx (ix2 p q) ((ValueIdx.contrEquiv1 dot_S5000x35_S35x1_S5000x1_1_0_0_1_n_n 35 rfl rfl).symm k) = ix2 k (0 : Fin 1) := funext fun a => Fin.ext (by
    match a with
    | ⟨0, _⟩ => exact (r1_rhs_0 _ _).trans hk
    | ⟨1, _⟩ => exact (r1_rhs_1 _ _).trans hq)
  rw [el, er]

/-- The fused stage's body on one block of 5000 nodes: row `p` gets Σ_k σ(a[p, k] + b[k]) · w[k, 0]. -/
theorem squash_block (x0 : Vec Ideal S5000x35 .f32) (x2 : Vec Ideal S35 .f32) (x8 : Vec Ideal S35x1 .f32) (p : Fin 5000) (q : Fin 1) :
    k1_pay1 (F := Ideal) x0 x2 x8 (ix2 p q) = ∑ k : Fin 35, Ideal.logistic (x0 (ix2 p k) + x2 (ix1 k)) * x8 (ix2 k (0 : Fin 1)) := by
  unfold k1_pay1
  show FloatOps.matmul dot_S5000x35_S35x1_S5000x1_1_0_0_1_n_n none
      (truncf (F := Ideal) .bf16 (logistic (addf (shapeCast S5000x35 x0 shapeCasts_S5000x35_S5000x35)
        (broadcastTo S5000x35 (shapeCast S1x35 x2 shapeCasts_S35_S1x35) broadcasts_S1x35_S5000x35))) bitsLt_bf16_f32)
      (truncf (F := Ideal) .bf16 (x8 : FVec Ideal S35x1 .f32) bitsLt_bf16_f32) (constant S5000x1 .f32 0x00000000#32) (ix2 p q) = _
  rw [r1_block_product]
  refine Finset.sum_congr rfl fun k _ => ?_
  show FloatOps.logistic (F := Ideal) (FloatOps.addf (F := Ideal) (shapeCast S5000x35 x0 shapeCasts_S5000x35_S5000x35 (ix2 p k))
      (broadcastTo S5000x35 (shapeCast S1x35 x2 shapeCasts_S35_S1x35) broadcasts_S1x35_S5000x35 (ix2 p k))) * x8 (ix2 k (0 : Fin 1)) = _
  rw [shapeCast_self, broadcastTo_1b_ab_apply (a := 5000) (b := 35), shapeCast_a_1a_apply (a := 35)]
  rfl

section Blocks

variable (V : (c : Dev nD) → (b : Ref sig .tc) → Buf (Elt Ideal) ((c : Thread nD τ).loc b))

/-- The three arrays the region finds in its operands, at their literal types: the aggregated features, the
    bias and the weight column. -/
abbrev r1_feats (c : Dev nD) : FVec Ideal S100000x35 .f32 := V c main_v43
abbrev r1_bias (c : Dev nD) : FVec Ideal S35 .f32 := V c main_arg3
abbrev r1_col (c : Dev nD) : FVec Ideal S35x1 .f32 := V c main_arg4

/-- Every access of the body starts at the origin of its staging buffer. -/
theorem r1_origin2 : (![0, 0] : Fin 2 → Nat) = fun _ => 0 := funext fun a => by fin_cases a <;> rfl
theorem r1_origin1 : (![0] : Fin 1 → Nat) = fun _ => 0 := funext fun a => by fin_cases a <;> rfl

/-- Point `t` takes block `t` of the feature rows and of the output rows, and the one block of the bias and of the
    weight column. -/
theorem r1_blocks : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `squash` of the arrays the region found. -/
theorem r1_flushed (c : Dev nD) (t : Fin cfg1.N) :
    (dat1 (F := Ideal) V c).flushed 3 t
      = ((cfg1.win 3).blk t).view.read (Elt Ideal) (Cert.Gcn.squash (V c main_v43) (V c main_arg3) (V c main_arg4)) := by
  show (cfg1.win 3).cut (grid1.coords t) ((dat1 (F := Ideal) V c).after 3 t) = _
  rw [after1_3]
  unfold out1_3
  rw [View.canon_unit_zero r1_origin2]
  simp only [View.ld_unit_zero (S := S5000x35) r1_origin2, View.ld_unit_zero (S := S35) r1_origin1, View.ld_unit_zero (S := S35x1) r1_origin2]
  obtain ⟨e0, e1, e2, e3, e4, e5, e6⟩ := r1_blocks t
  funext j
  obtain ⟨p, q, rfl⟩ : ∃ (p : Fin 5000) (q : Fin 1), j = ix2 p q := ⟨j 0, j 1, eq_ix2 j⟩
  refine (squash_block (iblk1 V c 0 t) (iblk1 V c 1 t) (iblk1 V c 2 t) p q).trans ?_
  show ∑ k : Fin 35, Ideal.logistic (r1_feats V c (((cfg1.win 0).blk t).view.emb (ix2 p k)) + r1_bias V c (((cfg1.win 1).blk t).view.emb (ix1 k)))
        * r1_col V c (((cfg1.win 2).blk t).view.emb (ix2 k (0 : Fin 1)))
    = ∑ k : Fin 35, Ideal.logistic (r1_feats V c (Cert.Gcn.at35 ((((cfg1.win 3).blk t).view.emb (ix2 p q)) 0) k) + r1_bias V c (ix1 k))
        * r1_col V c (ix2 k (0 : Fin 1))
  refine Finset.sum_congr rfl fun k _ => ?_
  have h0 : ((cfg1.win 0).blk t).view.emb (ix2 p k) = Cert.Gcn.at35 ((((cfg1.win 3).blk t).view.emb (ix2 p q)) 0) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 35 + 1 * k.val = k.val; omega
  have h1 : ((cfg1.win 1).blk t).view.emb (ix1 k) = ix1 k := by
    funext a; apply Fin.ext
    match a with
    | ⟨0, _⟩ => show win1_1.index t (0 : Fin 1) * 35 + 1 * k.val = k.val; omega
  have h2 : ((cfg1.win 2).blk t).view.emb (ix2 k (0 : Fin 1)) = ix2 k (0 : Fin 1) := by
    funext a; apply Fin.ext
    match a with
    | ⟨0, _⟩ => show win1_2.index t (0 : Fin 2) * 35 + 1 * k.val = k.val; omega
    | ⟨1, _⟩ => show win1_2.index t (1 : Fin 2) * 1 + 1 * 0 = 0; omega
  rw [h0, h1, h2]

/-- An index lies in point `t`'s block iff each coordinate lies in the block's range on its axis. -/
theorem r1_mem_blk (t : Fin cfg1.N) (i : S100000x1.Idx) :
    i ∈ ((cfg1.win 3).blk t).view.set ↔ ∀ a : Fin 2, win1_3.index t a * S5000x1.size a ≤ (i a).val ∧ (i a).val < win1_3.index t a * S5000x1.size a + S5000x1.size a := by
  show i ∈ ((View.whole main_v44).slice (win1_3.rect t)).set ↔ _
  rw [View.set_slice_whole, Rect.mem_set_unit]
  exact Iff.rfl

/-- Node `n` lies in the block of point `n / 5000`: the twenty blocks tile the node axis. -/
theorem r1_cover (i : S100000x1.Idx) :
    ∃ t : Fin cfg1.N, (cfg1.win 3).flush t = true ∧ i ∈ ((cfg1.win 3).blk t).view.set := by
  have hn : (i 0).val < 100000 := (i 0).isLt
  have hu : (i 1).val < 1 := (i 1).isLt
  have hN : cfg1.N = 20 := N_1
  have ht : (i 0).val / 5000 < cfg1.N := by rw [hN]; omega
  obtain ⟨e0, e1, e2, e3, e4, e5, e6⟩ := r1_blocks ⟨(i 0).val / 5000, ht⟩
  refine ⟨⟨(i 0).val / 5000, ht⟩, flush1_3 _, ?_⟩
  rw [r1_mem_blk]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win1_3.index ⟨(i 0).val / 5000, ht⟩ (1 : Fin 2) * 1 ≤ (i 1).val ∧ (i 1).val < win1_3.index ⟨(i 0).val / 5000, ht⟩ (1 : Fin 2) * 1 + 1
    rw [e6]; omega

end Blocks

/-- After the region the output array is `squash` of the feature array it found, the bias and the weight column. -/
theorem region1_value (V : (c : Dev nD) → (b : Ref sig .tc) → Buf (Elt Ideal) ((c : Thread nD τ).loc b)) (c : Dev nD) :
    (dat1 (F := Ideal) V c).arrAt 3 cfg1.N = Cert.Gcn.squash (V c main_v43) (V c main_arg3) (V c main_arg4) :=
  (dat1 (F := Ideal) V c).arrAt_eq_of_cover 3 _ (fun t _ => r1_flushed V c t) r1_cover

end Cert.KernelIdeal.Dense

end
-- ==== Proof.Region2.lean ====
import proofs.«135315_j75557064671746_1_alg».proof.Proof.Gen.KernelIdeal.Frame
import proofs.«135315_j75557064671746_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-
  The output layer's region: twenty blocks of 5000 nodes, block t holding the nodes 5000·t … 5000·t + 4999; on each
  block the body adds the one bias entry and applies the logistic. The blocks tile the node axis, so the array
  after the region is `readout` of the array the region found and the bias, node by node.
-/

variable (V : (c : Dev nD) → (b : Ref sig .tc) → Buf (Elt Ideal) ((c : Thread nD τ).loc b))

/-- The array the region finds in its first operand, and the bias, at their literal types. -/
abbrev r2_nodes (c : Dev nD) : FVec Ideal S100000x1 .f32 := V c main_v56
abbrev r2_bias (c : Dev nD) : FVec Ideal S1 .f32 := V c main_arg5

/-- The body reads and writes whole staging buffers: every access starts at the origin. -/
theorem r2_origin2 : (![0, 0] : Fin 2 → Nat) = fun _ => 0 := funext fun a => by fin_cases a <;> rfl
theorem r2_origin1 : (![0] : Fin 1 → Nat) = fun _ => 0 := funext fun a => by fin_cases a <;> rfl

/-- The body on one block: row `p` gets σ(o[p, 0] + b[0]). -/
theorem readout_block (x0 : Vec Ideal S5000x1 .f32) (x1 : Vec Ideal S1 .f32) (p : Fin 5000) (q : Fin 1) :
    k2_pay1 (F := Ideal) x0 x1 (ix2 p q) = Ideal.logistic (x0 (ix2 p q) + x1 (ix1 (0 : Fin 1))) := by
  unfold k2_pay1
  show FloatOps.logistic (F := Ideal) (FloatOps.addf (F := Ideal) (shapeCast S5000x1 x0 shapeCasts_S5000x1_S5000x1 (ix2 p q))
    (broadcastTo S5000x1 (shapeCast S1x1 x1 shapeCasts_S1_S1x1) broadcasts_S1x1_S5000x1 (ix2 p q))) = _
  rw [shapeCast_self, broadcastTo_1b_ab_apply (a := 5000) (b := 1), shapeCast_a_1a_apply (a := 1)]
  have hq : q = 0 := Fin.ext (by omega)
  subst hq
  rfl

/-- Point `t` takes block `t` of the node arrays and the one block of the bias. -/
theorem r2_blocks : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point `t` writes back is block `t` of `readout` of the arrays the region found. -/
theorem r2_flushed (c : Dev nD) (t : Fin cfg2.N) :
    (dat2 (F := Ideal) V c).flushed 2 t
      = ((cfg2.win 2).blk t).view.read (Elt Ideal) (Cert.Gcn.readout (V c main_v56) (V c main_arg5)) := by
  show (cfg2.win 2).cut (grid2.coords t) ((dat2 (F := Ideal) V c).after 2 t) = _
  rw [after2_2]
  unfold out2_2
  rw [View.canon_unit_zero r2_origin2]
  simp only [View.ld_unit_zero (S := S5000x1) r2_origin2, View.ld_unit_zero (S := S1) r2_origin1]
  obtain ⟨e0, e1, e2, e3, e4⟩ := r2_blocks t
  funext j
  obtain ⟨p, q, rfl⟩ : ∃ (p : Fin 5000) (q : Fin 1), j = ix2 p q := ⟨j 0, j 1, eq_ix2 j⟩
  refine (readout_block (iblk2 V c 0 t) (iblk2 V c 1 t) p q).trans ?_
  show Ideal.logistic (r2_nodes V c (((cfg2.win 0).blk t).view.emb (ix2 p q)) + r2_bias V c (((cfg2.win 1).blk t).view.emb (ix1 (0 : Fin 1))))
    = Ideal.logistic (r2_nodes V c (((cfg2.win 2).blk t).view.emb (ix2 p q)) + r2_bias V c (ix1 (0 : Fin 1)))
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 1 + 1 * q.val = win2_2.index t (1 : Fin 2) * 1 + 1 * q.val; omega
  have h1 : ((cfg2.win 1).blk t).view.emb (ix1 (0 : Fin 1)) = ix1 (0 : Fin 1) := by
    funext a; apply Fin.ext
    match a with
    | ⟨0, _⟩ => show win2_1.index t (0 : Fin 1) * 1 + 1 * 0 = 0; omega
  rw [h0, h1]

/-- An index lies in point `t`'s block iff each coordinate lies in the block's range. -/
theorem r2_mem_blk (t : Fin cfg2.N) (i : S100000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v57).slice (win2_2.rect t)).set ↔ _
  rw [View.set_slice_whole, Rect.mem_set_unit]
  exact Iff.rfl

/-- Node `n` lies in the block of point `n / 5000`. -/
theorem r2_cover (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 20 := N_2
  have ht : (i 0).val / 5000 < cfg2.N := by rw [hN]; omega
  obtain ⟨e0, e1, e2, e3, e4⟩ := r2_blocks ⟨(i 0).val / 5000, ht⟩
  refine ⟨⟨(i 0).val / 5000, ht⟩, flush2_2 _, ?_⟩
  rw [r2_mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e3]; show (i 0).val / 5000 * 5000 ≤ (i 0).val ∧ (i 0).val < (i 0).val / 5000 * 5000 + 5000; omega
  | ⟨1, _⟩ =>
    show win2_2.index ⟨(i 0).val / 5000, ht⟩ (1 : Fin 2) * 1 ≤ (i 1).val ∧ (i 1).val < win2_2.index ⟨(i 0).val / 5000, ht⟩ (1 : Fin 2) * 1 + 1
    rw [e4]; omega

/-- After the region the output array is `readout` of the array it found and the bias. -/
theorem region2_value (c : Dev nD) :
    (dat2 (F := Ideal) V c).arrAt 2 cfg2.N = Cert.Gcn.readout (V c main_v56) (V c main_arg5) :=
  (dat2 (F := Ideal) V c).arrAt_eq_of_cover 2 _ (fun t _ => r2_flushed V c t) r2_cover

end Cert.KernelIdeal.Dense

end
-- ==== Proof.KChain.lean ====
/-
  The kernel program's result, as one expression of its arguments.

  Reading the run backwards from the returned array: the last region applies bias and logistic to what the second
  message-passing stretch left; that stretch spreads what the fused region left; the fused region applies bias,
  logistic and the 35-term product to what the first message-passing stretch left; that stretch spreads the first
  region's outer product of the node scalars with the weight row. Each step is one of the boundary lemmas, so the
  composition is a chain of rewrites and nothing is opened.
-/
import proofs.«135315_j75557064671746_1_alg».proof.Proof.KHost
import proofs.«135315_j75557064671746_1_alg».proof.Proof.Region0
import proofs.«135315_j75557064671746_1_alg».proof.Proof.Region1
import proofs.«135315_j75557064671746_1_alg».proof.Proof.Region2

set_option maxRecDepth 16384

noncomputable section

namespace Cert.KernelIdeal.Host

open Cert.KernelIdeal Cert.KernelIdeal.Gen Cert.KernelIdeal.Dense
open Idealize.ShloMosaic Idealize.ShloMosaic.TcCoe
open Idealize.SL.Sem

variable (m : (ℓ : Loc nD τ sig) → Buf (Elt Ideal) ℓ) (ρ : Dev nD → PrngReg)

/-- What the first region leaves: the outer product of the launched node scalars and weight row. -/
theorem dense0_4 (c : Dev nD) :
    W4 m ρ c (Proc.devRef .tc main_v30) = Cert.Gcn.lift (m ((c : Thread nD τ).loc main_arg0)) (m ((c : Thread nD τ).loc main_arg2)) := by
  refine ((W4_arr m ρ c 2).trans (region0_value (V3 m ρ) c)).trans ?_
  show Cert.Gcn.lift (W3 m ρ c (Proc.devRef .tc main_arg0)) (W3 m ρ c (Proc.devRef .tc main_arg2)) = _
  rw [x_3, w1_3]

/-- What the fused region leaves, from what the first message-passing stretch left. -/
theorem dense1_6 (c : Dev nD) :
    W6 m ρ c (Proc.devRef .tc main_v44)
      = Cert.Gcn.squash (Cert.Gcn.spread35 (m ((c : Thread nD τ).loc main_arg1)) (W4 m ρ c (Proc.devRef .tc main_v30))) (m ((c : Thread nD τ).loc main_arg3)) (m ((c : Thread nD τ).loc main_arg4)) := by
  refine ((W6_arr m ρ c 3).trans (region1_value (V5 m ρ) c)).trans ?_
  show Cert.Gcn.squash (W5 m ρ c (Proc.devRef .tc main_v43)) (W5 m ρ c (Proc.devRef .tc main_arg3)) (W5 m ρ c (Proc.devRef .tc main_arg4)) = _
  rw [layer1_5, b1_5, w2_5]

/-- What the last region leaves, from what the second message-passing stretch left. -/
theorem dense2_8 (c : Dev nD) :
    W8 m ρ c (Proc.devRef .tc main_v57)
      = Cert.Gcn.readout (Cert.Gcn.spread1 (m ((c : Thread nD τ).loc main_arg1)) (W6 m ρ c (Proc.devRef .tc main_v44))) (m ((c : Thread nD τ).loc main_arg5)) := by
  refine ((W8_arr m ρ c 2).trans (region2_value (V7 m ρ) c)).trans ?_
  show Cert.Gcn.readout (W7 m ρ c (Proc.devRef .tc main_v56)) (W7 m ρ c (Proc.devRef .tc main_arg5)) = _
  rw [layer2_7, b2_7]

/-- THE RESULT: two rounds of message passing between the three dense maps, of the launched arguments. -/
theorem result_value (c : Dev nD) :
    W8 m ρ c (Proc.devRef .tc main_v57)
      = Cert.Gcn.readout (Cert.Gcn.spread1 (m ((c : Thread nD τ).loc main_arg1))
          (Cert.Gcn.squash (Cert.Gcn.spread35 (m ((c : Thread nD τ).loc main_arg1)) (Cert.Gcn.lift (m ((c : Thread nD τ).loc main_arg0)) (m ((c : Thread nD τ).loc main_arg2))))
            (m ((c : Thread nD τ).loc main_arg3)) (m ((c : Thread nD τ).loc main_arg4)))) (m ((c : Thread nD τ).loc main_arg5)) := by
  rw [dense2_8, dense1_6, dense0_4]

end Cert.KernelIdeal.Host

end
-- ==== Proof.RefDense.lean ====
import proofs.«135315_j75557064671746_1_alg».proof.Proof.RefRead
import proofs.«135315_j75557064671746_1_alg».proof.Proof.Spec
import Idealize.ShloMosaic.Lib.ValueIdx
import Idealize.ShloMosaic.PureOps.Ideal.Laws

noncomputable section

namespace Cert.Gcn

open Cert.ReferenceIdeal Cert.ReferenceIdeal.Gen Cert.ReferenceIdeal.ReadP Idealize.ShloMosaic Idealize.ShloMosaic.ValueIdx

/-! ### The constant one and the logistic as the reference spells it -/

/-- The single-precision pattern with a clear sign, biased exponent 127 and an empty fraction is the
    normal number (2^23 + 0) · 2^(127 − 127 − 23), that is 1. -/
theorem one_pattern : Ideal.ofBits .f32 0x3F800000#32 = 1 := by
  simp [Ideal.ofBits, Ideal.ieee, -EReal.coe_mul]
  norm_num

/-- The reference writes the logistic out: one divided by (one plus the exponential of the negated argument), the two
    ones being the pattern above. On the extended reals that expression is the logistic itself, by its definition. -/
theorem spelled_logistic (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = Ideal.logistic z := by
  rw [Ideal.ofBits_def, one_pattern]
  rfl

/-! ### Where the index functions land -/

/-- In the outer product the left operand is read at node `i 0`, column 0 (the contracted axis has one point). -/
theorem lift_left (i : S100000x35.Idx) : lidx_main_v30 i 0 = at1 (i 0) :=
  funext fun a => Fin.ext (by match a with | ⟨0, _⟩ => rfl | ⟨1, _⟩ => rfl)

/-- … and the weight row at row 0, column `i 1`. -/
theorem lift_right (i : S100000x35.Idx) : ridx_main_v30 i 0 = ix2 (0 : Fin 1) (i 1) :=
  funext fun a => Fin.ext (by match a with | ⟨0, _⟩ => rfl | ⟨1, _⟩ => rfl)

theorem ref_lift (x0 : (⟨S100000x1, .f32⟩ : BufTy).Contents (Elt Ideal)) (x2 : (⟨S1x35, .f32⟩ : BufTy).Contents (Elt Ideal)) :
    val_main_v30 (F := Ideal) x0 x2 = lift x0 x2 := by
  funext i
  -- a contraction over an axis of one point is its single term
  rw [val_main_v30_apply, Fin.sum_univ_one, lift_left, lift_right]
  rfl

/-- In the 35-term product the left operand is read at node `i 0`, feature `k`. -/
theorem squash_left (i : S100000x1.Idx) (k : Fin 35) : lidx_main_v53 i k = at35 (i 0) k :=
  funext fun a => Fin.ext (by match a with | ⟨0, _⟩ => rfl | ⟨1, _⟩ => rfl)

/-- … and the weight column at row `k`; the result's second coordinate ranges over one point, so it is 0. -/
theorem squash_right (i : S100000x1.Idx) (k : Fin 35) : ridx_main_v53 i k = ix2 k (0 : Fin 1) :=
  funext fun a => Fin.ext (by
    match a with
    | ⟨0, _⟩ => rfl
    | ⟨1, _⟩ =>
      have h : (i 1).val < 1 := (i 1).isLt
      show (i 1).val = 0
      omega)

/-- The bias [35], seen as a row [1, 35] and then repeated down the 100000 nodes, is read at its entry `j 1`. -/
theorem bias35_at (j : S100000x35.Idx) : idx_main_v44 (idx_main_v45 j) = ix1 (j 1) :=
  funext fun a => Fin.ext (by match a with | ⟨0, _⟩ => rfl)

/-- The bias [1], seen as [1, 1] and repeated down the nodes, is read at its only entry. -/
theorem bias1_at (j : S100000x1.Idx) : idx_main_v66 (idx_main_v67 j) = ix1 (0 : Fin 1) :=
  funext fun a => Fin.ext (by match a with | ⟨0, _⟩ => rfl)

theorem ref_squash (x0 : (⟨S100000x1, .f32⟩ : BufTy).Contents (Elt Ideal)) (x1 : (⟨S2x1600000, .i32⟩ : BufTy).Contents (Elt Ideal))
    (x2 : (⟨S1x35, .f32⟩ : BufTy).Contents (Elt Ideal)) (x3 : (⟨S35, .f32⟩ : BufTy).Contents (Elt Ideal)) (x4 : (⟨S35x1, .f32⟩ : BufTy).Contents (Elt Ideal)) :
    val_main_v53 (F := Ideal) x0 x1 x2 x3 x4 = squash (val_main_v43 (F := Ideal) x0 x1 x2) x3 x4 := by
  funext i
  -- the stage is the 35-term sum; both sides sum over the same index set, so compare term by term
  rw [val_main_v53_apply]
  unfold squash
  refine Finset.sum_congr rfl fun k _ => ?_
  -- read the left factor down to the aggregated features and the bias
  rw [val_main_v52_apply, val_main_v51_apply, val_main_cst_10_apply, val_main_v50_apply, val_main_v49_apply,
    val_main_cst_9_apply, val_main_v48_apply, val_main_v47_apply, val_main_v46_apply, val_main_v45_apply,
    val_main_v44_apply]
  generalize val_main_v43 (F := Ideal) x0 x1 x2 = a
  -- the spelled-out logistic is the logistic; the three reads land on the specification's indices
  rw [spelled_logistic, bias35_at, squash_left, squash_right]
  rfl

theorem ref_readout (x0 : (⟨S100000x1, .f32⟩ : BufTy).Contents (Elt Ideal)) (x1 : (⟨S2x1600000, .i32⟩ : BufTy).Contents (Elt Ideal))
    (x2 : (⟨S1x35, .f32⟩ : BufTy).Contents (Elt Ideal)) (x3 : (⟨S35, .f32⟩ : BufTy).Contents (Elt Ideal)) (x4 : (⟨S35x1, .f32⟩ : BufTy).Contents (Elt Ideal))
    (x5 : (⟨S1, .f32⟩ : BufTy).Contents (Elt Ideal)) :
    val_main_v74 (F := Ideal) x0 x1 x2 x3 x4 x5 = readout (val_main_v65 (F := Ideal) x0 x1 x2 x3 x4) x5 := by
  funext i
  rw [val_main_v74_apply, val_main_v73_apply, val_main_cst_15_apply, val_main_v72_apply, val_main_v71_apply,
    val_main_cst_14_apply, val_main_v70_apply, val_main_v69_apply, val_main_v68_apply, val_main_v67_apply,
    val_main_v66_apply]
  generalize val_main_v65 (F := Ideal) x0 x1 x2 x3 x4 = a
  rw [spelled_logistic, bias1_at]
  rfl

end Cert.Gcn

end
-- ==== Proof.lean ====
/-
  A two-layer graph convolution on 100000 nodes and 1.7 million edges (the given edges and a self-loop per node),
  against its plain reference, over the extended reals.

  Both programs build the edge endpoints and the symmetric degree normalisation from the edge list by the same
  operations, and both do the sparse half of each layer (gather at the sources, scale, scatter-add at the
  destinations) by the same operations: that shared part is carried as the functions `spread35` and `spread1` and
  never opened. They differ in the dense half only. Where the reference multiplies the node scalars by a one-row
  matrix, the kernel program forms the outer product x[n, 0] · W₁[0, j] blockwise: a contraction over an axis of one
  point is its single term. Where the reference adds the bias, applies 1 / (1 + e^(−t)) operation by operation and
  multiplies by the 35 × 1 matrix, the kernel program does the same per block of 5000 nodes with the logistic as one
  operation and the product on operands passed through a narrower float format: on the extended reals a change of
  format is the identity, the logistic IS that quotient (with σ(−∞) = 0, σ(+∞) = 1), and both products are the same
  35-term sum. The last layer's bias and logistic agree in the same way. No law of arithmetic beyond these
  definitions is used, so the precondition (finite inputs) is never opened.

  The kernel program's result is read off its run boundary by boundary (KHost, KChain: the blocks of each region tile
  the node axis, Region0 / Region1 / Region2), the reference's off its run stage by stage (RefDense), and both are
  the one expression `readout (spread1 e (squash (spread35 e (lift x W₁)) b₁ W₂)) b₂`.
-/
import proofs.«135315_j75557064671746_1_alg».proof.Defs
import proofs.«135315_j75557064671746_1_alg».proof.Proof.Gen.Kernel
import proofs.«135315_j75557064671746_1_alg».proof.Proof.Gen.Kernel.Frame
import proofs.«135315_j75557064671746_1_alg».proof.Proof.Gen.KernelIdeal
import proofs.«135315_j75557064671746_1_alg».proof.Proof.Gen.KernelIdeal.Frame
import proofs.«135315_j75557064671746_1_alg».proof.Proof.Gen.ReferenceIdeal
import proofs.«135315_j75557064671746_1_alg».proof.Proof.Gen.Pre_finite_inputs
import proofs.«135315_j75557064671746_1_alg».proof.Proof.KRun
import proofs.«135315_j75557064671746_1_alg».proof.Proof.KChain
import proofs.«135315_j75557064671746_1_alg».proof.Proof.RefDense
import proofs.«135315_j75557064671746_1_alg».proof.Proof.Graph
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The reference's result, stage by stage, is the same expression of the arguments as the kernel program's. -/
theorem reference_value (x0 : (⟨Cert.ReferenceIdeal.S100000x1, .f32⟩ : BufTy).Contents (Elt Ideal)) (x1 : (⟨Cert.ReferenceIdeal.S2x1600000, .i32⟩ : BufTy).Contents (Elt Ideal))
    (x2 : (⟨Cert.ReferenceIdeal.S1x35, .f32⟩ : BufTy).Contents (Elt Ideal)) (x3 : (⟨Cert.ReferenceIdeal.S35, .f32⟩ : BufTy).Contents (Elt Ideal)) (x4 : (⟨Cert.ReferenceIdeal.S35x1, .f32⟩ : BufTy).Contents (Elt Ideal))
    (x5 : (⟨Cert.ReferenceIdeal.S1, .f32⟩ : BufTy).Contents (Elt Ideal)) :
    Cert.ReferenceIdeal.ReadP.val_main_v74 (F := Ideal) x0 x1 x2 x3 x4 x5
      = Cert.Gcn.readout (Cert.Gcn.spread1 x1 (Cert.Gcn.squash (Cert.Gcn.spread35 x1 (Cert.Gcn.lift x0 x2)) x3 x4)) x5 := by
  rw [Cert.Gcn.ref_readout, Cert.Gcn.ref_layer2, Cert.Gcn.ref_squash, Cert.Gcn.ref_layer1, Cert.Gcn.ref_lift]

/-- From memories that agree on the arguments the two programs end with the same result array. -/
theorem algebraic : Cert.algebraic_KernelIdeal_ReferenceIdeal := by
  intro m ρ m' ρ' _ hagree
  refine ⟨fun c => Cert.KernelIdeal.Gen.W8 m ρ c (Proc.devRef .tc Cert.KernelIdeal.main_v57), Cert.KernelIdeal.GenP.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v74_eq, (hagree c).1, (hagree c).2.1, (hagree c).2.2.1, (hagree c).2.2.2.1, (hagree c).2.2.2.2.1,
    (hagree c).2.2.2.2.2, reference_value]
  exact (Cert.KernelIdeal.Host.result_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
